-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x4096 : Shape := ⟨2, ![8, 4096]⟩
abbrev S8x512x128 : Shape := ⟨3, ![8, 512, 128]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S4096x4096 : Shape := ⟨2, ![4096, 4096]⟩
abbrev S512x512 : Shape := ⟨2, ![512, 512]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S8x512, .f32⟩
  | .local _ .vmem, ⟨5, _⟩ => ⟨S8x512, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S512x512, .f32⟩
  | .local _ .vmem, ⟨11, _⟩ => ⟨S512x512, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x512_S8x512_0_0 : ∀ a, (![0, 0] : Fin 2 → Nat) a + S8x512.size a ≤ S8x512.size a
  h_S8x512 : 0 < S8x512.numel
  inb_S8x512x128_S8x512x128_0_0_0 : ∀ a, (![0, 0, 0] : Fin 3 → Nat) a + S8x512x128.size a ≤ S8x512x128.size a
  h_S8x512x128 : 0 < S8x512x128.numel
  reduces_S8x512x128_S8x512 : S8x512x128.Reduces [2] S8x512
  bitsLt_bf16_f32 : FTy.bits .bf16 < FTy.bits .f32
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [1] S8x512
  shapeCasts_S8x512_S8x512 : S8x512.ShapeCasts S8x512
  reduces_S8x512x512_S512x512 : S8x512x512.Reduces [0] S512x512
  inb_S512x512_S512x512_0_0 : ∀ a, (![0, 0] : Fin 2 → Nat) a + S512x512.size a ≤ S512x512.size a
  h_S512x512 : 0 < S512x512.numel
  reducesTo_S8x4096_S_d0_1 : S8x4096.ReducesTo [0, 1] S_
  h_S_ : 0 < S_.numel
  reducesTo_S4096x4096_S_d0_1 : S4096x4096.ReducesTo [0, 1] S_
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S8x4096x128.size a
  hwx0_0 : ∀ i : grid0.Coords, EltTy.bits .f32 = 32 ∨ (Rect.block (s := S8x4096x128) S8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S8x4096x128.size a
  hwx0_1 : ∀ i : grid0.Coords, EltTy.bits .f32 = 32 ∨ (Rect.block (s := S8x4096x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x128.size a ≤ S8x4096x128.size a
  hwx1_0 : ∀ i : grid1.Coords, EltTy.bits .f32 = 32 ∨ (Rect.block (s := S8x4096x128) S8x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x128.size a ≤ S8x4096x128.size a
  hwx1_1 : ∀ i : grid1.Coords, EltTy.bits .f32 = 32 ∨ (Rect.block (s := S8x4096x128) S8x512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)

variable [Facts₀]

def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S4096x4096_d0 : S8x4096x4096.ReducesTo [0] S4096x4096
  reducesTo_S8x4096_S_d0_1 : S8x4096.ReducesTo [0, 1] S_
  reducesTo_S4096x4096_S_d0_1 : S4096x4096.ReducesTo [0, 1] S_
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.Spec.lean ====
/-
  The mathematics both programs compute, stated once and over no program.

  For two clouds of points `x, y : [8, ·, 128]` (a batch of 8, rows of 128 coordinates) the clamped squared
  distance between row `n` of `x` and row `m` of `y` in batch `b` is
  `max (‖x_n‖² + ‖y_m‖² - 2·⟨x_n, y_m⟩) 0`, the Gram form of `‖x_n - y_m‖²`. The result of both programs is the mean over
  `(b, m)` of the distance from `y_m` to its nearest `x_n` plus the mean over `(n, m)` of the least distance over the batch.
  One program takes the square root of every squared distance and then the minimum; the other takes the minimum of
  the squares, tile by tile along `n`, and one square root at the end. The two agree because the extended-real square
  root is monotone (and fixes `⊤`), so it commutes with a minimum; no finiteness is needed.
-/
import Idealize.ShloMosaic.PureOps.Ideal
import Idealize.ShloMosaic.Lib.ValueIdx

noncomputable section

open scoped BigOperators

namespace Chamfer

open Idealize.ShloMosaic Idealize.ShloMosaic.ValueIdx

/-- The clamped squared distance between row `n` of `x` and row `m` of `y` in batch `b`, in Gram form. The two float
    literals (2 and 0) are kept as the words both programs print. -/
def sqd {N M : ℕ} (x : (⟨3, ![8, N, 128]⟩ : Shape).Idx → EReal) (y : (⟨3, ![8, M, 128]⟩ : Shape).Idx → EReal)
    (b : Fin 8) (n : Fin N) (m : Fin M) : EReal :=
  max (((∑ d : Fin 128, x (ix3 b n d) * x (ix3 b n d)) + ∑ d : Fin 128, y (ix3 b m d) * y (ix3 b m d))
        - Ideal.ofBits .f32 0x40000000#32 * ∑ d : Fin 128, x (ix3 b n d) * y (ix3 b m d))
      (Ideal.ofBits .f32 0x00000000#32)

/-- `sqd` only looks at the two rows it names. -/
theorem sqd_congr {N M N' M' : ℕ} (x : (⟨3, ![8, N, 128]⟩ : Shape).Idx → EReal) (y : (⟨3, ![8, M, 128]⟩ : Shape).Idx → EReal)
    (x' : (⟨3, ![8, N', 128]⟩ : Shape).Idx → EReal) (y' : (⟨3, ![8, M', 128]⟩ : Shape).Idx → EReal)
    (b : Fin 8) (n : Fin N) (m : Fin M) (n' : Fin N') (m' : Fin M')
    (hx : ∀ d : Fin 128, x (ix3 b n d) = x' (ix3 b n' d)) (hy : ∀ d : Fin 128, y (ix3 b m d) = y' (ix3 b m' d)) :
    sqd x y b n m = sqd x' y' b n' m' := by
  unfold sqd
  simp only [hx, hy]

/-- The distance itself. -/
def dist {N M : ℕ} (x : (⟨3, ![8, N, 128]⟩ : Shape).Idx → EReal) (y : (⟨3, ![8, M, 128]⟩ : Shape).Idx → EReal)
    (b : Fin 8) (n : Fin N) (m : Fin M) : EReal := Ideal.sqrt (sqd x y b n m)

abbrev Pts : Shape := ⟨3, ![8, 4096, 128]⟩

/-- For each `(b, m)`: the distance from `y_m` to the nearest `x_n` of its batch. -/
def fwd (x y : Pts.Idx → EReal) : (⟨2, ![8, 4096]⟩ : Shape).Idx → EReal :=
  fun i => ⨅ n : Fin 4096, dist x y (i 0) n (i 1)

/-- For each `(n, m)`: the least distance between `x_n` and `y_m` over the batch. -/
def bwd (x y : Pts.Idx → EReal) : (⟨2, ![4096, 4096]⟩ : Shape).Idx → EReal :=
  fun i => ⨅ b : Fin 8, dist x y b (i 0) (i 1)

/-- The least SQUARED distance from `y_m` to the first `512 * k` rows of `x`: what the tiled program has accumulated
    after `k` tiles. -/
def fwdSq (x y : Pts.Idx → EReal) (k : ℕ) : (⟨2, ![8, 4096]⟩ : Shape).Idx → EReal :=
  fun i => ⨅ (n : Fin 4096) (_ : n.val < 512 * k), sqd x y (i 0) n (i 1)

/-! ## The square root and minima -/

theorem sqrt_mono : Monotone Ideal.sqrt := by
  intro a b hab
  induction a using EReal.rec with
  | bot => simp
  | top => rw [top_le_iff.mp hab]
  | coe r =>
    induction b using EReal.rec with
    | bot => simp at hab
    | top => simp
    | coe s =>
      have hrs : r ≤ s := EReal.coe_le_coe_iff.mp hab
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

theorem sqrt_min (a b : EReal) : Ideal.sqrt (min a b) = min (Ideal.sqrt a) (Ideal.sqrt b) := sqrt_mono.map_min

/-- The square root of a finite infimum is the infimum of the square roots. -/
theorem sqrt_iInf {ι : Type} [Fintype ι] (g : ι → EReal) : Ideal.sqrt (⨅ i, g i) = ⨅ i, Ideal.sqrt (g i) := by
  rw [← Finset.inf_univ_eq_iInf, ← Finset.inf_univ_eq_iInf]
  exact Finset.comp_inf_eq_inf_comp Ideal.sqrt (fun a b => sqrt_min a b) Ideal.sqrt_top

/-- The word both programs start a minimum from is `+∞`. -/
theorem ofBits_inf : Ideal.ofBits .f32 0x7F800000#32 = (⊤ : EReal) := by simp [Ideal.ofBits, Ideal.ieee]

/-- A fold of `min` from `⊤` over a whole finite index type is the infimum. -/
theorem fold_min_top {ι : Type} [Fintype ι] (g : ι → EReal) : (Finset.univ : Finset ι).fold min ⊤ g = ⨅ i, g i := by
  rw [← Finset.inf_univ_eq_iInf]
  rfl

/-! ## The minimum over the rows, tile by tile -/

theorem iInf_lt_zero (g : Fin 4096 → EReal) : (⨅ (n : Fin 4096) (_ : n.val < 512 * 0), g n) = ⊤ := by simp

theorem iInf_lt_all (g : Fin 4096 → EReal) : (⨅ (n : Fin 4096) (_ : n.val < 512 * 8), g n) = ⨅ n, g n :=
  iInf_congr fun n => iInf_pos (by have := n.isLt; omega)

/-- The minimum over the first `k + 1` tiles of 512 rows is the minimum over the first `k` tiles and over tile `k`, whose
    rows are given by any `h` that agrees with `g` there. -/
theorem iInf_tile (g : Fin 4096 → EReal) (k : ℕ) (hk : k < 8) (h : Fin 512 → EReal)
    (hh : ∀ (p : Fin 512) (n : Fin 4096), n.val = 512 * k + p.val → h p = g n) :
    (⨅ (n : Fin 4096) (_ : n.val < 512 * k), g n) ⊓ (⨅ p : Fin 512, h p) = ⨅ (n : Fin 4096) (_ : n.val < 512 * (k + 1)), g n := by
  apply le_antisymm
  · refine le_iInf₂ fun n hn => ?_
    by_cases hlt : n.val < 512 * k
    · exact inf_le_left.trans (iInf₂_le n hlt)
    · refine inf_le_right.trans ((iInf_le _ (⟨n.val - 512 * k, by omega⟩ : Fin 512)).trans (le_of_eq ?_))
      exact hh _ n (by simp only; omega)
  · refine le_inf (le_iInf₂ fun n hn => iInf₂_le n (by omega)) (le_iInf fun p => ?_)
    have hp := p.isLt
    rw [hh p ⟨512 * k + p.val, by omega⟩ rfl]
    exact iInf₂_le _ (by simp only; omega)

end Chamfer

end
-- ==== Proof.PayValue.lean ====
/-
  The four values the two kernel bodies store, read at an entry over the extended reals.

  Both bodies compute, from a block `x0` of 512 rows of the first cloud and a block `x1` of 512 rows of the second, the
  `[8, 512, 512]` tile of clamped squared distances `Chamfer.sqd x0 x1 b p q` (row sums of squares broadcast along the
  other block's rows, minus twice the batched product of the blocks, clamped at 0). The first body keeps, per `(b, q)`,
  the running minimum over `p` (started from `+∞`, square-rooted at the last tile); the second stores, per `(p, q)`, the
  square root of the minimum over the batch.
-/
import proofs.«132761_j16922171146733_1_alg».proof.Proof.Gen.KernelIdeal.Skeleton
import proofs.«132761_j16922171146733_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Idealize.ShloMosaic Idealize.ShloMosaic.ValueIdx Cert.KernelIdeal Cert.KernelIdeal.Gen

/-! ## The tile of clamped squared distances -/

/-- The `[8, 512, 512]` tile both bodies form from the two blocks: row sums of squares of each block, the first
    broadcast along the second block's rows and the second along the first's, minus twice the batched product of the
    blocks, clamped at 0. -/
def tile (x0 x1 : Vec Ideal S8x512x128 .f32) : FVec Ideal S8x512x512 .f32 :=
  maximumf
    (subf
      (addf
        (broadcastTo S8x512x512
          (shapeCast S8x512x1
            (multiReduction (F := Ideal) .add [2] S8x512 (mulf x0 x0) 0x00000000#32 reduces_S8x512x128_S8x512 (.inl rfl) rfl)
            shapeCasts_S8x512_S8x512x1)
          broadcasts_S8x512x1_S8x512x512)
        (broadcastTo S8x512x512
          (shapeCast S8x1x512
            (multiReduction (F := Ideal) .add [2] S8x512 (mulf x1 x1) 0x00000000#32 reduces_S8x512x128_S8x512 (.inl rfl) rfl)
            shapeCasts_S8x512_S8x1x512)
          broadcasts_S8x1x512_S8x512x512))
      (mulf (broadcast S8x512x512 (Scalar.ofBits (F := Ideal) .f32 0x40000000#32))
        (matmul dot_S8x512x128_S8x512x128_S8x512x512_2_2_1_1_0_0 none
          (truncf .bf16 x0 bitsLt_bf16_f32) (truncf .bf16 x1 bitsLt_bf16_f32)
          (constant (F := Ideal) S8x512x512 .f32 0x00000000#32))))
    (broadcast S8x512x512 (Scalar.ofBits (F := Ideal) .f32 0x00000000#32))

/-- The first body's update is the accumulator against the tile's minimum over its rows. -/
theorem k0_pay2_eq (x0 x1 : Vec Ideal S8x512x128 .f32) (acc : Vec Ideal S8x512 .f32) :
    k0_pay2 (F := Ideal) x0 x1 acc
      = minimumf (shapeCast S8x512 acc shapeCasts_S8x512_S8x512)
          (multiReduction (F := Ideal) .minimumf [1] S8x512 (tile x0 x1) 0x7F800000#32 reduces_S8x512x512_S8x512 (.inl rfl) rfl) := rfl

/-- The second body's value is the square root of the tile's minimum over the batch. -/
theorem k1_pay1_eq (x0 x1 : Vec Ideal S8x512x128 .f32) :
    k1_pay1 (F := Ideal) x0 x1
      = sqrt (multiReduction (F := Ideal) .minimumf [0] S512x512 (tile x0 x1) 0x7F800000#32 reduces_S8x512x512_S512x512 (.inl rfl) rfl) := rfl

/-! ## Row sums of squares -/

/-- The sum of squares along the 128 coordinates of row `p` of batch `b`. -/
theorem rowSq_apply (x : Vec Ideal S8x512x128 .f32) (b : Fin 8) (p : Fin 512) :
    multiReduction (F := Ideal) .add [2] S8x512 (mulf x x) 0x00000000#32 reduces_S8x512x128_S8x512 (.inl rfl) rfl (ix2 b p)
      = ∑ d : Fin 128, x (ix3 b p d) * x (ix3 b p d) := by
  refine (Ideal.multiReduction_add_single (mulf x x) 0x00000000#32 reduces_S8x512x128_S8x512 (.inl rfl) rfl (ix2 b p)).trans ?_
  refine Finset.sum_congr rfl fun d _ => ?_
  have e : reduces_S8x512x128_S8x512.lift (ix2 b p) d = ix3 b p d :=
    funext fun a => Fin.ext (by match a with | ⟨0, _⟩ => rfl | ⟨1, _⟩ => rfl | ⟨2, _⟩ => rfl)
  rw [e]
  rfl

/-! ## The column and the row a vector of row sums is laid along -/

/-- `[8, 512]` viewed as `[8, 512, 1]`: entry `(b, p, 0)` is entry `(b, p)`. -/
theorem colCast_apply {α : Type} (v : S8x512.Idx → α) (b : Fin 8) (p : Fin 512) (u : Fin 1) :
    shapeCast S8x512x1 v shapeCasts_S8x512_S8x512x1 (ix3 b p u) = v (ix2 b p) :=
  shapeCast_apply v _ _ _ (by
    have hu : u.val = 0 := by omega
    rw [Shape.rowMajor_val_two, Shape.rowMajor_val_three]
    show b.val * 512 + p.val = (b.val * 512 + p.val) * 1 + u.val
    omega)

/-- `[8, 512]` viewed as `[8, 1, 512]`: entry `(b, 0, q)` is entry `(b, q)`. -/
theorem rowCast_apply {α : Type} (v : S8x512.Idx → α) (b : Fin 8) (u : Fin 1) (q : Fin 512) :
    shapeCast S8x1x512 v shapeCasts_S8x512_S8x1x512 (ix3 b u q) = v (ix2 b q) :=
  shapeCast_apply v _ _ _ (by
    have hu : u.val = 0 := by omega
    rw [Shape.rowMajor_val_two, Shape.rowMajor_val_three]
    show b.val * 512 + q.val = (b.val * 1 + u.val) * 512 + q.val
    omega)

/-- A column `[8, 512, 1]` repeated along the last axis: entry `(b, p, q)` is the column's `(b, p, 0)`. -/
theorem colBcast_apply {α : Type} (v : S8x512x1.Idx → α) (b : Fin 8) (p q : Fin 512) :
    broadcastTo S8x512x512 v broadcasts_S8x512x1_S8x512x512 (ix3 b p q) = v (ix3 b p (0 : Fin 1)) := by
  refine broadcastTo_apply v _ (ix3 b p q) (ix3 b p (0 : Fin 1)) fun ax => ?_
  match ax with
  | ⟨0, _⟩ => show b.val = if (8 : Nat) = 1 then 0 else b.val; rw [if_neg (by decide)]
  | ⟨1, _⟩ => show p.val = if (512 : Nat) = 1 then 0 else p.val; rw [if_neg (by decide)]
  | ⟨2, _⟩ => show 0 = if (1 : Nat) = 1 then 0 else q.val; rw [if_pos rfl]

/-- A row `[8, 1, 512]` repeated along the middle axis: entry `(b, p, q)` is the row's `(b, 0, q)`. -/
theorem rowBcast_apply {α : Type} (v : S8x1x512.Idx → α) (b : Fin 8) (p q : Fin 512) :
    broadcastTo S8x512x512 v broadcasts_S8x1x512_S8x512x512 (ix3 b p q) = v (ix3 b (0 : Fin 1) q) := by
  refine broadcastTo_apply v _ (ix3 b p q) (ix3 b (0 : Fin 1) q) fun ax => ?_
  match ax with
  | ⟨0, _⟩ => show b.val = if (8 : Nat) = 1 then 0 else b.val; rw [if_neg (by decide)]
  | ⟨1, _⟩ => show 0 = if (1 : Nat) = 1 then 0 else p.val; rw [if_pos rfl]
  | ⟨2, _⟩ => show q.val = if (512 : Nat) = 1 then 0 else q.val; rw [if_neg (by decide)]

/-! ## The batched product `bnd,bmd->bnm`

At output entry `(b, n, m)` and contraction coordinate `d` the left operand is read at `(b, n, d)` and the right at
`(b, m, d)`: axis 0 is the batch axis of both, axis 1 the free axis of each, axis 2 the contracted one. -/

theorem lhs_gram_0 (i : S8x512x512.Idx) (q : dot_S8x512x128_S8x512x128_S8x512x512_2_2_1_1_0_0.contr.Idx) :
    (dot_S8x512x128_S8x512x128_S8x512x512_2_2_1_1_0_0.lhsIdx i q 0).val = (i 0).val := by
  unfold DotDims.lhsIdx
  rw [dif_pos (show (0 : Fin S8x512x128.rank) ∈ dot_S8x512x128_S8x512x128_S8x512x512_2_2_1_1_0_0.lhsBatch by decide)]
  rfl
theorem lhs_gram_1 (i : S8x512x512.Idx) (q : dot_S8x512x128_S8x512x128_S8x512x512_2_2_1_1_0_0.contr.Idx) :
    (dot_S8x512x128_S8x512x128_S8x512x512_2_2_1_1_0_0.lhsIdx i q 1).val = (i 1).val := by
  unfold DotDims.lhsIdx
  rw [dif_neg (show ¬(1 : Fin S8x512x128.rank) ∈ dot_S8x512x128_S8x512x128_S8x512x512_2_2_1_1_0_0.lhsBatch by decide), dif_pos (show (1 : Fin S8x512x128.rank) ∈ dot_S8x512x128_S8x512x128_S8x512x512_2_2_1_1_0_0.lhsNonContracting by decide)]
  rfl
theorem lhs_gram_2 (i : S8x512x512.Idx) (q : dot_S8x512x128_S8x512x128_S8x512x512_2_2_1_1_0_0.contr.Idx) :
    (dot_S8x512x128_S8x512x128_S8x512x512_2_2_1_1_0_0.lhsIdx i q 2).val = (q ⟨0, by decide⟩).val :=
  dot_S8x512x128_S8x512x128_S8x512x512_2_2_1_1_0_0.lhsIdx_val_of_single rfl i q
theorem rhs_gram_0 (i : S8x512x512.Idx) (q : dot_S8x512x128_S8x512x128_S8x512x512_2_2_1_1_0_0.contr.Idx) :
    (dot_S8x512x128_S8x512x128_S8x512x512_2_2_1_1_0_0.rhsIdx i q 0).val = (i 0).val := by
  unfold DotDims.rhsIdx
  rw [dif_pos (show (0 : Fin S8x512x128.rank) ∈ dot_S8x512x128_S8x512x128_S8x512x512_2_2_1_1_0_0.rhsBatch by decide)]
  rfl
theorem rhs_gram_1 (i : S8x512x512.Idx) (q : dot_S8x512x128_S8x512x128_S8x512x512_2_2_1_1_0_0.contr.Idx) :
    (dot_S8x512x128_S8x512x128_S8x512x512_2_2_1_1_0_0.rhsIdx i q 1).val = (i 2).val := by
  unfold DotDims.rhsIdx
  rw [dif_neg (show ¬(1 : Fin S8x512x128.rank) ∈ dot_S8x512x128_S8x512x128_S8x512x512_2_2_1_1_0_0.rhsBatch by decide), dif_pos (show (1 : Fin S8x512x128.rank) ∈ dot_S8x512x128_S8x512x128_S8x512x512_2_2_1_1_0_0.rhsNonContracting by decide)]
  rfl
theorem rhs_gram_2 (i : S8x512x512.Idx) (q : dot_S8x512x128_S8x512x128_S8x512x512_2_2_1_1_0_0.contr.Idx) :
    (dot_S8x512x128_S8x512x128_S8x512x512_2_2_1_1_0_0.rhsIdx i q 2).val = (q ⟨0, by decide⟩).val :=
  dot_S8x512x128_S8x512x128_S8x512x512_2_2_1_1_0_0.rhsIdx_val_of_single rfl i q

/-- The batched product into the zero accumulator at `(b, p, q)`: the inner product of row `p` of the first block and
    row `q` of the second, in batch `b`. -/
theorem gram_apply (y0 y1 : FVec Ideal S8x512x128 .bf16) (b : Fin 8) (p q : Fin 512) :
    matmul dot_S8x512x128_S8x512x128_S8x512x512_2_2_1_1_0_0 none y0 y1
        (constant (F := Ideal) S8x512x512 .f32 0x00000000#32) (ix3 b p q)
      = ∑ d : Fin 128, y0 (ix3 b p d) * y1 (ix3 b q d) := by
  simp only [matmul]
  rw [Ideal.matmul_constant_zero_apply, ← Equiv.sum_comp (ValueIdx.contrEquiv1 dot_S8x512x128_S8x512x128_S8x512x512_2_2_1_1_0_0 128 rfl rfl).symm]
  refine Finset.sum_congr rfl fun k _ => ?_
  have hk := ValueIdx.contrEquiv1_symm_val dot_S8x512x128_S8x512x128_S8x512x512_2_2_1_1_0_0 128 rfl rfl k
  have el : dot_S8x512x128_S8x512x128_S8x512x512_2_2_1_1_0_0.lhsIdx (ix3 b p q) ((ValueIdx.contrEquiv1 dot_S8x512x128_S8x512x128_S8x512x512_2_2_1_1_0_0 128 rfl rfl).symm k) = ix3 b p k := funext fun a => Fin.ext (by
    match a with
    | ⟨0, _⟩ => exact lhs_gram_0 _ _
    | ⟨1, _⟩ => exact lhs_gram_1 _ _
    | ⟨2, _⟩ => exact (lhs_gram_2 _ _).trans hk)
  have er : dot_S8x512x128_S8x512x128_S8x512x512_2_2_1_1_0_0.rhsIdx (ix3 b p q) ((ValueIdx.contrEquiv1 dot_S8x512x128_S8x512x128_S8x512x512_2_2_1_1_0_0 128 rfl rfl).symm k) = ix3 b q k := funext fun a => Fin.ext (by
    match a with
    | ⟨0, _⟩ => exact rhs_gram_0 _ _
    | ⟨1, _⟩ => exact rhs_gram_1 _ _
    | ⟨2, _⟩ => exact (rhs_gram_2 _ _).trans hk)
  rw [el, er]

/-! ## The tile at an entry -/

/-- Entry `(b, p, q)` of the tile is the clamped squared distance between row `p` of the first block and row `q` of the
    second in batch `b` (the narrowing of the product's operands is the identity on extended reals). -/
theorem tile_apply (x0 x1 : Vec Ideal S8x512x128 .f32) (b : Fin 8) (p q : Fin 512) :
    tile x0 x1 (ix3 b p q) = Chamfer.sqd x0 x1 b p q := by
  unfold tile Chamfer.sqd
  rw [maximumf_apply, subf_apply, addf_apply, mulf_apply, broadcast_apply, broadcast_apply,
    colBcast_apply, rowBcast_apply, colCast_apply, rowCast_apply, rowSq_apply, rowSq_apply, gram_apply]
  rfl

/-! ## Minima along one axis -/

/-- A minimum reduction over one axis is the fold of `min` from the start word's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum from `+∞` over the middle axis at `(b, q)`: the infimum over the 512 rows `p` of entry `(b, p, q)`. -/
theorem minRows_apply (t : FVec Ideal S8x512x512 .f32) (b : Fin 8) (q : Fin 512) :
    multiReduction (F := Ideal) .minimumf [1] S8x512 t 0x7F800000#32 reduces_S8x512x512_S8x512 (.inl rfl) rfl (ix2 b q)
      = ⨅ p : Fin 512, t (ix3 b p q) := by
  refine (multiReduction_minimumf_single t 0x7F800000#32 reduces_S8x512x512_S8x512 (.inl rfl) rfl (ix2 b q)).trans ?_
  have e : (fun p : Fin 512 => t (reduces_S8x512x512_S8x512.lift (ix2 b q) p)) = fun p => t (ix3 b p q) :=
    funext fun p => congrArg t (funext fun a => Fin.ext (by match a with | ⟨0, _⟩ => rfl | ⟨1, _⟩ => rfl | ⟨2, _⟩ => rfl))
  show (Finset.univ : Finset (Fin 512)).fold min (Ideal.ofBits .f32 0x7F800000#32)
    (fun p : Fin 512 => t (reduces_S8x512x512_S8x512.lift (ix2 b q) p)) = _
  rw [e, Chamfer.ofBits_inf, Chamfer.fold_min_top]

/-- The minimum from `+∞` over the batch axis at `(p, q)`: the infimum over the 8 batches `b` of entry `(b, p, q)`. -/
theorem minBatch_apply (t : FVec Ideal S8x512x512 .f32) (p q : Fin 512) :
    multiReduction (F := Ideal) .minimumf [0] S512x512 t 0x7F800000#32 reduces_S8x512x512_S512x512 (.inl rfl) rfl (ix2 p q)
      = ⨅ b : Fin 8, t (ix3 b p q) := by
  refine (multiReduction_minimumf_single t 0x7F800000#32 reduces_S8x512x512_S512x512 (.inl rfl) rfl (ix2 p q)).trans ?_
  have e : (fun b : Fin 8 => t (reduces_S8x512x512_S512x512.lift (ix2 p q) b)) = fun b => t (ix3 b p q) :=
    funext fun b => congrArg t (funext fun a => Fin.ext (by match a with | ⟨0, _⟩ => rfl | ⟨1, _⟩ => rfl | ⟨2, _⟩ => rfl))
  show (Finset.univ : Finset (Fin 8)).fold min (Ideal.ofBits .f32 0x7F800000#32)
    (fun b : Fin 8 => t (reduces_S8x512x512_S512x512.lift (ix2 p q) b)) = _
  rw [e, Chamfer.ofBits_inf, Chamfer.fold_min_top]

/-- A vector's square root at an entry is the entry's square root. -/
theorem sqrtVec_apply {s : Shape} {φ : FTy} (v : FVec Ideal s φ) (i : s.Idx) :
    Idealize.ShloMosaic.sqrt v i = Ideal.sqrt (v i) := rfl

/-! ## The four values -/

/-- The value the first body resets its accumulator to is `+∞` everywhere. -/
theorem top_apply (i : S8x512.Idx) : k0_pay1 (F := Ideal) i = (⊤ : EReal) := by
  show Ideal.ofBits .f32 0x7F800000#32 = ⊤
  exact Chamfer.ofBits_inf

/-- The first body's update: the accumulator against the least clamped squared distance over the tile's 512 rows. -/
theorem minTile_apply (x0 x1 : Vec Ideal S8x512x128 .f32) (acc : Vec Ideal S8x512 .f32) (b : Fin 8) (q : Fin 512) :
    k0_pay2 (F := Ideal) x0 x1 acc (ix2 b q) = min (acc (ix2 b q)) (⨅ p : Fin 512, Chamfer.sqd x0 x1 b p q) := by
  rw [k0_pay2_eq, minimumf_apply, shapeCast_self, minRows_apply]
  simp only [tile_apply]

/-- The first body's last step: the square root, entry by entry. -/
theorem sqrt_apply (v : Vec Ideal S8x512 .f32) (i : S8x512.Idx) : k0_pay3 (F := Ideal) v i = Ideal.sqrt (v i) := by
  unfold k0_pay3
  rw [shapeCast_self]
  rfl

/-- The second body's value: the square root of the least clamped squared distance over the batch. -/
theorem batchMin_apply (x0 x1 : Vec Ideal S8x512x128 .f32) (p q : Fin 512) :
    k1_pay1 (F := Ideal) x0 x1 (ix2 p q) = Ideal.sqrt (⨅ b : Fin 8, Chamfer.sqd x0 x1 b p q) := by
  rw [k1_pay1_eq, sqrtVec_apply, minBatch_apply]
  simp only [tile_apply]

end Cert.KernelIdeal.PayValue

end
-- ==== Proof.Region0Value.lean ====
/-
  The first call's output array after its run.

  Its grid is 8 × 8 points `(mt, nt)`, `nt` the fast axis. The output block `(0, mt)` (all 8 batches, columns `512·mt …`) stays
  in its buffer over the 8 points of a fixed `mt`: the first resets it to `+∞`, every point takes the minimum with the least
  clamped squared distance over the 512 rows `512·nt …` of the first cloud, the last takes the square root and the block is
  written back. So after point `(mt, nt)` the buffer holds the least squared distance over the first `512·(nt + 1)` rows, and at
  the write-back the square root of the least over all 4096: the distance to the nearest row, `Chamfer.fwd`.
-/
import proofs.«132761_j16922171146733_1_alg».proof.Proof.Gen.KernelIdeal.Frame
import proofs.«132761_j16922171146733_1_alg».proof.Proof.Spec
import proofs.«132761_j16922171146733_1_alg».proof.Proof.PayValue
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each of the three control cases leaves in the output's buffer -/

section Pieces

variable {F : FTy → Type} [FloatOps F]

/-- A first point of a column block: the buffer is reset to `+∞` and then updated with the tile's minimum. -/
theorem outA_eq (c : Dev nD) (i : grid0.Coords) (arg2 : Memref sig .tc .vmem S8x512x128 .f32) (harg2 : arg2.IsWhole) (arg3 : Memref sig .tc .vmem S8x512x128 .f32) (harg3 : arg3.IsWhole) (arg4 : Memref sig .tc .vmem S8x512 .f32) (harg4 : arg4.IsWhole) (hc0 : cond0_0 i) (hc1 : ¬cond0_1 i)
    (x0 : Vec F S8x512x128 .f32) (x1 : Vec F S8x512x128 .f32) :
    out0_A_2 c i arg2 harg2 arg3 harg3 arg4 harg4 hc0 hc1 x0 x1 = k0_pay2 x0 x1 k0_pay1 := by
  unfold out0_A_2
  rw [View.read_writes_eq_canon _ _ _ (cover0_A_2 c i arg2 harg2 arg3 harg3 arg4 harg4 hc0 hc1 x0 x1)]
  unfold kernelRun0_A
  dsimp only
  try sl_unfold_words
  rw [View.canon_cons_unit_zero (S := S8x512) hz2]
  simp only [View.readAt_eq_ld, harg2.read_unread, harg3.read_unread, View.ld_unit_zero (S := S8x512x128) hz3,
    View.readCov_unit_zero (S := S8x512) _ hz2]

/-- A middle point: the buffer, as the point before left it, updated with the tile's minimum. -/
theorem outB_eq (c : Dev nD) (i : grid0.Coords) (arg2 : Memref sig .tc .vmem S8x512x128 .f32) (harg2 : arg2.IsWhole) (arg3 : Memref sig .tc .vmem S8x512x128 .f32) (harg3 : arg3.IsWhole) (arg4 : Memref sig .tc .vmem S8x512 .f32) (harg4 : arg4.IsWhole) (hc0 : ¬cond0_0 i) (hc1 : ¬cond0_1 i)
    (x0 : Vec F S8x512x128 .f32) (x1 : Vec F S8x512x128 .f32) (xo2 : Vec F S8x512 .f32) :
    out0_B_2 c i arg2 harg2 arg3 harg3 arg4 harg4 hc0 hc1 x0 x1 xo2 = k0_pay2 x0 x1 xo2 := by
  unfold out0_B_2
  rw [View.read_writes_eq_canon _ _ _ (cover0_B_2 c i arg2 harg2 arg3 harg3 arg4 harg4 hc0 hc1 x0 x1 xo2)]
  unfold kernelRun0_B
  dsimp only
  try sl_unfold_words
  rw [View.canon_unit_zero hz2]
  simp only [View.readAt_eq_ld, harg2.read_unread, harg3.read_unread, harg4.read_unread, View.ld_unit_zero (S := S8x512x128) hz3,
    View.ld_unit_zero (S := S8x512) hz2]

/-- A last point: updated as a middle point, then the square root of what the update left. -/
theorem outC_eq (c : Dev nD) (i : grid0.Coords) (arg2 : Memref sig .tc .vmem S8x512x128 .f32) (harg2 : arg2.IsWhole) (arg3 : Memref sig .tc .vmem S8x512x128 .f32) (harg3 : arg3.IsWhole) (arg4 : Memref sig .tc .vmem S8x512 .f32) (harg4 : arg4.IsWhole) (hc0 : ¬cond0_0 i) (hc1 : cond0_1 i)
    (x0 : Vec F S8x512x128 .f32) (x1 : Vec F S8x512x128 .f32) (xo2 : Vec F S8x512 .f32) :
    out0_C_2 c i arg2 harg2 arg3 harg3 arg4 harg4 hc0 hc1 x0 x1 xo2 = k0_pay3 (k0_pay2 x0 x1 xo2) := by
  unfold out0_C_2
  rw [View.read_writes_eq_canon _ _ _ (cover0_C_2 c i arg2 harg2 arg3 harg3 arg4 harg4 hc0 hc1 x0 x1 xo2)]
  unfold kernelRun0_C
  dsimp only
  try sl_unfold_words
  rw [View.canon_cons_unit_zero (S := S8x512) hz2]
  simp only [View.readAt_eq_ld, harg2.read_unread, harg3.read_unread, harg4.read_unread, View.ld_unit_zero (S := S8x512x128) hz3,
    View.ld_unit_zero (S := S8x512) hz2, View.readCov_unit_zero (S := S8x512) _ hz2]

end Pieces

/-! ## The blocks as rows of the two clouds -/

variable (V : (c : Dev nD) → (b : Ref sig .tc) → Buf (Elt Ideal) ((c : Thread nD τ).loc b))

/-- The two clouds as the region finds them. -/
abbrev xarr (c : Dev nD) : Chamfer.Pts.Idx → EReal := V c main_arg0
abbrev yarr (c : Dev nD) : Chamfer.Pts.Idx → EReal := V c main_arg1
/-- The two input blocks at a point. -/
abbrev xblk (c : Dev nD) (t : Fin cfg0.N) : Vec Ideal S8x512x128 .f32 := iblk0 V c 0 t
abbrev yblk (c : Dev nD) (t : Fin cfg0.N) : Vec Ideal S8x512x128 .f32 := iblk0 V c 1 t

/-- The printed index maps over the grid: point `t` is `(mt, nt) = (t / 8, t % 8)`; the first cloud's block is row tile `nt`,
    the second cloud's and the output's column tile is `mt`. -/
theorem idx_facts : ∀ t : Fin cfg0.N, win0_0.index t (0 : Fin 3) = 0 ∧ win0_0.index t (1 : Fin 3) = t.val % 8 ∧ win0_0.index t (2 : Fin 3) = 0
    ∧ win0_1.index t (0 : Fin 3) = 0 ∧ win0_1.index t (1 : Fin 3) = t.val / 8 ∧ win0_1.index t (2 : Fin 3) = 0
    ∧ win0_2.index t (0 : Fin 2) = 0 ∧ win0_2.index t (1 : Fin 2) = t.val / 8 :=
  (by decide +kernel : ∀ t : Fin grid0.N, _)

/-- Entry `(b, p, d)` of the first cloud's block at point `t` is entry `(b, 512·(t % 8) + p, d)` of the cloud. -/
theorem xblk_apply (c : Dev nD) (t : Fin cfg0.N) (j : S8x512x128.Idx) (k : Chamfer.Pts.Idx)
    (h0 : (k 0).val = (j 0).val) (h1 : (k 1).val = 512 * (t.val % 8) + (j 1).val) (h2 : (k 2).val = (j 2).val) :
    xblk V c t j = xarr V c k := by
  obtain ⟨e0, e1, e2, -⟩ := idx_facts t
  show V c main_arg0 (((cfg0.win 0).blk t).view.emb j) = V c main_arg0 k
  congr 1
  funext a
  apply Fin.ext
  match a with
  | ⟨0, _⟩ => show win0_0.index t (0 : Fin 3) * 8 + 1 * (j 0).val = (k 0).val; omega
  | ⟨1, _⟩ => show win0_0.index t (1 : Fin 3) * 512 + 1 * (j 1).val = (k 1).val; omega
  | ⟨2, _⟩ => show win0_0.index t (2 : Fin 3) * 128 + 1 * (j 2).val = (k 2).val; omega

/-- Entry `(b, q, d)` of the second cloud's block at point `t` is entry `(b, 512·(t / 8) + q, d)` of the cloud. -/
theorem yblk_apply (c : Dev nD) (t : Fin cfg0.N) (j : S8x512x128.Idx) (k : Chamfer.Pts.Idx)
    (h0 : (k 0).val = (j 0).val) (h1 : (k 1).val = 512 * (t.val / 8) + (j 1).val) (h2 : (k 2).val = (j 2).val) :
    yblk V c t j = yarr V c k := by
  obtain ⟨-, -, -, e0, e1, e2, -⟩ := idx_facts t
  show V c main_arg1 (((cfg0.win 1).blk t).view.emb j) = V c main_arg1 k
  congr 1
  funext a
  apply Fin.ext
  match a with
  | ⟨0, _⟩ => show win0_1.index t (0 : Fin 3) * 8 + 1 * (j 0).val = (k 0).val; omega
  | ⟨1, _⟩ => show win0_1.index t (1 : Fin 3) * 512 + 1 * (j 1).val = (k 1).val; omega
  | ⟨2, _⟩ => show win0_1.index t (2 : Fin 3) * 128 + 1 * (j 2).val = (k 2).val; omega

/-! ## One update, and the three cases -/

/-- The update at point `t`: if the buffer held, at `(b, q)`, the least squared distance from row `m = 512·(t / 8) + q` of the
    second cloud to the first `512·(t % 8)` rows of the first, it now holds the least over the first `512·(t % 8 + 1)`. -/
theorem step (c : Dev nD) (t : Fin cfg0.N) (acc : Vec Ideal S8x512 .f32) (b : Fin 8) (q : Fin 512) (m : Fin 4096)
    (hm : m.val = 512 * (t.val / 8) + q.val)
    (hacc : acc (ix2 b q) = Chamfer.fwdSq (xarr V c) (yarr V c) (t.val % 8) (ix2 b m)) :
    k0_pay2 (F := Ideal) (xblk V c t) (yblk V c t) acc (ix2 b q) = Chamfer.fwdSq (xarr V c) (yarr V c) (t.val % 8 + 1) (ix2 b m) := by
  have hN : t.val < 64 := lt_of_lt_of_eq t.isLt N_0
  refine (PayValue.minTile_apply (xblk V c t) (yblk V c t) acc b q).trans ?_
  rw [hacc]
  exact Chamfer.iInf_tile (fun n => Chamfer.sqd (xarr V c) (yarr V c) b n m) (t.val % 8) (by omega)
    (fun p => Chamfer.sqd (xblk V c t) (yblk V c t) b p q)
    (fun p n hn => Chamfer.sqd_congr _ _ _ _ b p q n m
      (fun d => xblk_apply V c t (ix3 b p d) (ix3 b n d) rfl hn rfl)
      (fun d => yblk_apply V c t (ix3 b q d) (ix3 b m d) rfl hm rfl))

theorem caseA (c : Dev nD) (t : Fin cfg0.N) (h0 : t.val % 8 = 0) (b : Fin 8) (q : Fin 512) (m : Fin 4096)
    (hm : m.val = 512 * (t.val / 8) + q.val) :
    (outsAt0 V c t.val t.isLt : Vec Ideal S8x512 .f32) (ix2 b q) = Chamfer.fwdSq (xarr V c) (yarr V c) (t.val % 8 + 1) (ix2 b m) := by
  rw [outsAt0_A V c t h0 (by omega), outA_eq]
  refine step V c t _ b q m hm ?_
  rw [PayValue.top_apply, h0]
  exact (Chamfer.iInf_lt_zero _).symm

theorem caseB (c : Dev nD) (t : Fin cfg0.N) (h0 : ¬t.val % 8 = 0) (h1 : ¬t.val % 8 = 7) (b : Fin 8) (q : Fin 512) (m : Fin 4096)
    (hm : m.val = 512 * (t.val / 8) + q.val)
    (hprev : (outsAt0 V c (t.val - 1) (Nat.lt_of_le_of_lt (Nat.sub_le _ _) t.isLt) : Vec Ideal S8x512 .f32) (ix2 b q)
      = Chamfer.fwdSq (xarr V c) (yarr V c) (t.val % 8) (ix2 b m)) :
    (outsAt0 V c t.val t.isLt : Vec Ideal S8x512 .f32) (ix2 b q) = Chamfer.fwdSq (xarr V c) (yarr V c) (t.val % 8 + 1) (ix2 b m) := by
  rw [outsAt0_B V c t h0 h1, outB_eq]
  exact step V c t _ b q m hm hprev

theorem caseC (c : Dev nD) (t : Fin cfg0.N) (h0 : ¬t.val % 8 = 0) (h1 : t.val % 8 = 7) (b : Fin 8) (q : Fin 512) (m : Fin 4096)
    (hm : m.val = 512 * (t.val / 8) + q.val)
    (hprev : (outsAt0 V c (t.val - 1) (Nat.lt_of_le_of_lt (Nat.sub_le _ _) t.isLt) : Vec Ideal S8x512 .f32) (ix2 b q)
      = Chamfer.fwdSq (xarr V c) (yarr V c) (t.val % 8) (ix2 b m)) :
    (outsAt0 V c t.val t.isLt : Vec Ideal S8x512 .f32) (ix2 b q) = Ideal.sqrt (Chamfer.fwdSq (xarr V c) (yarr V c) 8 (ix2 b m)) := by
  rw [outsAt0_C V c t h0 h1, outC_eq]
  refine (PayValue.sqrt_apply _ _).trans ?_
  rw [step V c t _ b q m hm hprev, h1]

/-! ## The buffer after every point -/

/-- After point `n = 8·mt + nt` the buffer holds, at `(b, q)`, the least squared distance from row `512·mt + q` of the second
    cloud to the first `512·(nt + 1)` rows of the first — and its square root once `nt = 7`. -/
theorem inv (c : Dev nD) : ∀ (n : ℕ) (hn : n < cfg0.N) (b : Fin 8) (q : Fin 512) (m : Fin 4096), m.val = 512 * (n / 8) + q.val →
    (outsAt0 V c n hn : Vec Ideal S8x512 .f32) (ix2 b q)
      = if n % 8 = 7 then Ideal.sqrt (Chamfer.fwdSq (xarr V c) (yarr V c) 8 (ix2 b m))
        else Chamfer.fwdSq (xarr V c) (yarr V c) (n % 8 + 1) (ix2 b m)
  | 0, hn, b, q, m, hm => by
    rw [if_neg (by decide)]
    exact caseA V c ⟨0, hn⟩ rfl b q m hm
  | n + 1, hn, b, q, m, hm => by
    have hN : n + 1 < 64 := lt_of_lt_of_eq hn N_0
    by_cases h0 : (n + 1) % 8 = 0
    · rw [if_neg (by omega)]
      exact caseA V c ⟨n + 1, hn⟩ h0 b q m hm
    · have ih := inv c n (Nat.lt_of_succ_lt hn) b q m (by omega)
      rw [if_neg (by omega), show n % 8 + 1 = (n + 1) % 8 from by omega] at ih
      by_cases h1 : (n + 1) % 8 = 7
      · rw [if_pos h1]
        exact caseC V c ⟨n + 1, hn⟩ h0 h1 b q m hm ih
      · rw [if_neg h1]
        exact caseB V c ⟨n + 1, hn⟩ h0 h1 b q m hm ih

/-! ## From the written-back blocks to the array -/

/-- What a last point writes back is its block of `Chamfer.fwd`: the square root of the least squared distance over all
    4096 rows is the least distance. -/
theorem flushed_eq (c : Dev nD) (t : Fin cfg0.N) (hf : (cfg0.win 2).flush t = true) :
    (dat0 V c).flushed 2 t = ((cfg0.win 2).blk t).view.read (Elt Ideal) (Chamfer.fwd (xarr V c) (yarr V c)) := by
  have h7 : t.val % 8 = 7 := (flush0_2 t).mp hf
  obtain ⟨-, -, -, -, -, -, e0, e1⟩ := idx_facts t
  show (cfg0.win 2).cut (grid0.coords t) ((dat0 V c).after 2 t) = _
  rw [after0_2]
  funext j
  have hj0 : (j 0).val < 8 := (j 0).isLt
  have hj1 : (j 1).val < 512 := (j 1).isLt
  have hN : t.val < 64 := lt_of_lt_of_eq t.isLt N_0
  have hjeq : (j : S8x512.Idx) = ix2 (⟨(j 0).val, hj0⟩ : Fin 8) (⟨(j 1).val, hj1⟩ : Fin 512) := by
    funext a
    apply Fin.ext
    match a with
    | ⟨0, _⟩ => rfl
    | ⟨1, _⟩ => rfl
  have hi : (((cfg0.win 2).blk t).view.emb j : S8x4096.Idx)
      = ix2 (⟨(j 0).val, hj0⟩ : Fin 8) (⟨512 * (t.val / 8) + (j 1).val, by omega⟩ : Fin 4096) := by
    funext a
    apply Fin.ext
    match a with
    | ⟨0, _⟩ => show win0_2.index t (0 : Fin 2) * 8 + 1 * (j 0).val = (j 0).val; omega
    | ⟨1, _⟩ => show win0_2.index t (1 : Fin 2) * 512 + 1 * (j 1).val = 512 * (t.val / 8) + (j 1).val; omega
  have hv := inv V c t.val t.isLt ⟨(j 0).val, hj0⟩ ⟨(j 1).val, hj1⟩ ⟨512 * (t.val / 8) + (j 1).val, by omega⟩ rfl
  rw [if_pos h7] at hv
  show (outsAt0 V c t.val t.isLt : Vec Ideal S8x512 .f32) j = Chamfer.fwd (xarr V c) (yarr V c) (((cfg0.win 2).blk t).view.emb j)
  rw [hi]
  refine ((congrArg (outsAt0 V c t.val t.isLt : Vec Ideal S8x512 .f32) hjeq).trans hv).trans ?_
  show Ideal.sqrt (⨅ (n : Fin 4096) (_ : n.val < 512 * 8), Chamfer.sqd (xarr V c) (yarr V c) _ n _)
    = ⨅ n : Fin 4096, Ideal.sqrt (Chamfer.sqd (xarr V c) (yarr V c) _ n _)
  rw [Chamfer.iInf_lt_all, Chamfer.sqrt_iInf]

/-- An index of the array is in point `t`'s block iff each coordinate is in the block's range on its axis. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Every `(b, m)` lies in the block the last point of column tile `m / 512` writes back. -/
theorem cover (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 64 := N_0
  let t : Fin cfg0.N := ⟨8 * ((i 1).val / 512) + 7, by omega⟩
  have ht : t.val = 8 * ((i 1).val / 512) + 7 := rfl
  obtain ⟨-, -, -, -, -, -, e0, e1⟩ := idx_facts t
  refine ⟨t, (flush0_2 t).mpr (by omega), ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- After the first call's run its output array holds, at `(b, m)`, the distance from row `m` of the second cloud to the
    nearest row of the first, in batch `b`. -/
theorem value (c : Dev nD) :
    (dat0 (F := Ideal) V c).arrAt 2 cfg0.N = Chamfer.fwd (V c main_arg0) (V c main_arg1) :=
  (dat0 V c).arrAt_eq_of_cover 2 (Chamfer.fwd (xarr V c) (yarr V c)) (flushed_eq V c) (cover)

end Cert.KernelIdeal.Region0

end
-- ==== Proof.Region1Value.lean ====
/-
  The second call's output array after its run.

  Its grid is 8 × 8 tiles `(nt, mt)`; at each point the body reads rows `512·nt …` of the first cloud and rows `512·mt …` of
  the second (all 8 batches of each) and writes the `512 × 512` block `(nt, mt)` of the output: at `(p, q)` the square root of
  the least clamped squared distance over the batch between rows `512·nt + p` and `512·mt + q`. The blocks tile the
  `4096 × 4096` output, and the square root of a minimum is the minimum of the square roots, so the array ends at
  `Chamfer.bwd` of the two clouds as the region finds them.
-/
import proofs.«132761_j16922171146733_1_alg».proof.Proof.Gen.KernelIdeal.Frame
import proofs.«132761_j16922171146733_1_alg».proof.Proof.Spec
import proofs.«132761_j16922171146733_1_alg».proof.Proof.PayValue
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable (V : (c : Dev nD) → (b : Ref sig .tc) → Buf (Elt Ideal) ((c : Thread nD τ).loc b))

/-- The zero offsets of a whole rank-2 and a whole rank-3 access. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point `t` of the 8 × 8 grid, whose tile is `(nt, mt) = (t / 8, t % 8)` (the last axis runs
    fastest): the first cloud's block is `(0, nt, 0)`, the second's `(0, mt, 0)`, the output's `(nt, mt)`. -/
theorem block_indices : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = t.val / 8 ∧ win1_2.index t (1 : Fin 2) = t.val % 8 :=
  (by decide +kernel : ∀ t : Fin grid1.N, _)

/-- One entry of a tile. Let `x0` be rows `512·nt …` of a cloud `X` and `x1` rows `512·mt …` of a cloud `Y` (all batches, all
    128 coordinates). Then what the body stores at `(p, q)` is the least distance over the batch between row `512·nt + p` of
    `X` and row `512·mt + q` of `Y`: the clamped squared distance only looks at the two rows it names, and the square root
    of the minimum over the batch is the minimum of the square roots. -/
theorem coord_value (x0 x1 : Vec Ideal S8x512x128 .f32) (X Y : Chamfer.Pts.Idx → EReal) (nt mt : ℕ)
    (h0 : ∀ (b : Fin 8) (p : Fin 512) (d : Fin 128) (n : Fin 4096), n.val = nt * 512 + p.val → x0 (ix3 b p d) = X (ix3 b n d))
    (h1 : ∀ (b : Fin 8) (q : Fin 512) (d : Fin 128) (m : Fin 4096), m.val = mt * 512 + q.val → x1 (ix3 b q d) = Y (ix3 b m d))
    (p q : Fin 512) (n m : Fin 4096) (hn : n.val = nt * 512 + p.val) (hm : m.val = mt * 512 + q.val) :
    k1_pay1 (F := Ideal) x0 x1 (ix2 p q) = Chamfer.bwd X Y (ix2 n m) := by
  rw [PayValue.batchMin_apply, Chamfer.sqrt_iInf]
  unfold Chamfer.bwd Chamfer.dist
  refine iInf_congr fun b => congrArg Ideal.sqrt ?_
  exact Chamfer.sqd_congr x0 x1 X Y b p q n m (fun d => h0 b p d n hn) (fun d => h1 b q d m hm)

/-- The same at an index `y` of the tile and an index `i` of the output whose coordinates are `y`'s moved by the tile's
    offsets. -/
theorem point_value (x0 x1 : Vec Ideal S8x512x128 .f32) (X Y : Chamfer.Pts.Idx → EReal) (nt mt : ℕ)
    (h0 : ∀ (b : Fin 8) (p : Fin 512) (d : Fin 128) (n : Fin 4096), n.val = nt * 512 + p.val → x0 (ix3 b p d) = X (ix3 b n d))
    (h1 : ∀ (b : Fin 8) (q : Fin 512) (d : Fin 128) (m : Fin 4096), m.val = mt * 512 + q.val → x1 (ix3 b q d) = Y (ix3 b m d))
    (y : S512x512.Idx) (i : S4096x4096.Idx) (hn : (i 0).val = nt * 512 + (y 0).val) (hm : (i 1).val = mt * 512 + (y 1).val) :
    k1_pay1 (F := Ideal) x0 x1 y = Chamfer.bwd X Y i := by
  obtain ⟨p, q, rfl⟩ : ∃ (p q : Fin 512), y = ix2 p q := ⟨y 0, y 1, eq_ix2 y⟩
  obtain ⟨n, m, rfl⟩ : ∃ (n m : Fin 4096), i = ix2 n m := ⟨i 0, i 1, eq_ix2 i⟩
  exact coord_value x0 x1 X Y nt mt h0 h1 p q n m hn hm

/-- The first window's block at point `t` is rows `512·nt …` of the first cloud: its entry `(b, p, d)` is the cloud's entry
    `(b, n, d)` with `n = 512·nt + p` (a block's coordinate is its index times its size plus the coordinate inside it, and
    the block's index on the batch and coordinate axes is 0). -/
theorem iblk0_apply (c : Dev nD) (t : Fin cfg1.N) (b : Fin 8) (p : Fin 512) (d : Fin 128) (n : Fin 4096)
    (hn : n.val = win1_0.index t (1 : Fin 3) * 512 + p.val) :
    (iblk1 (F := Ideal) V c 0 t : Vec Ideal S8x512x128 .f32) (ix3 b p d) = (V c main_arg0 : S8x4096x128.Idx → EReal) (ix3 b n d) := by
  obtain ⟨e0, e1, e2, -⟩ := block_indices t
  unfold iblk1
  rw [View.read_apply]
  show V c main_arg0 _ = V c main_arg0 _
  congr 1
  funext a
  apply Fin.ext
  match a with
  | ⟨0, _⟩ => show win1_0.index t (0 : Fin 3) * 8 + 1 * b.val = b.val; rw [e0]; omega
  | ⟨1, _⟩ => show win1_0.index t (1 : Fin 3) * 512 + 1 * p.val = n.val; omega
  | ⟨2, _⟩ => show win1_0.index t (2 : Fin 3) * 128 + 1 * d.val = d.val; rw [e2]; omega

/-- The second window's block at point `t` is rows `512·mt …` of the second cloud, in the same way. -/
theorem iblk1_apply (c : Dev nD) (t : Fin cfg1.N) (b : Fin 8) (q : Fin 512) (d : Fin 128) (m : Fin 4096)
    (hm : m.val = win1_1.index t (1 : Fin 3) * 512 + q.val) :
    (iblk1 (F := Ideal) V c 1 t : Vec Ideal S8x512x128 .f32) (ix3 b q d) = (V c main_arg1 : S8x4096x128.Idx → EReal) (ix3 b m d) := by
  obtain ⟨-, -, -, e0, e1, e2, -⟩ := block_indices t
  unfold iblk1
  rw [View.read_apply]
  show V c main_arg1 _ = V c main_arg1 _
  congr 1
  funext a
  apply Fin.ext
  match a with
  | ⟨0, _⟩ => show win1_1.index t (0 : Fin 3) * 8 + 1 * b.val = b.val; rw [e0]; omega
  | ⟨1, _⟩ => show win1_1.index t (1 : Fin 3) * 512 + 1 * q.val = m.val; omega
  | ⟨2, _⟩ => show win1_1.index t (2 : Fin 3) * 128 + 1 * d.val = d.val; rw [e2]; omega

/-- What point `t` writes back is block `(nt, mt)` of `Chamfer.bwd` of the two clouds: the body's one store fills the whole
    tile with its value of the two input blocks, which are the clouds' rows `512·nt …` and `512·mt …`, and entry `(p, q)` of
    the output's block `(nt, mt)` is the output's entry `(512·nt + p, 512·mt + q)`. -/
theorem flushed_eq (c : Dev nD) (t : Fin cfg1.N) :
    (dat1 (F := Ideal) V c).flushed 2 t
      = ((cfg1.win 2).blk t).view.read (Elt Ideal) (Chamfer.bwd (V c main_arg0) (V c main_arg1)) := by
  show (cfg1.win 2).cut (grid1.coords t) ((dat1 V c).after 2 t) = _
  rw [after1_2]
  unfold out1_2
  rw [View.canon_unit_zero zero2]
  simp only [View.ld_unit_zero (S := S8x512x128) zero3]
  obtain ⟨-, e01, -, -, e11, -, e20, e21⟩ := block_indices t
  funext j
  refine point_value (iblk1 V c 0 t) (iblk1 V c 1 t) (V c main_arg0) (V c main_arg1) (win1_0.index t (1 : Fin 3)) (win1_1.index t (1 : Fin 3))
    (fun b p d n hn => iblk0_apply V c t b p d n hn) (fun b q d m hm => iblk1_apply V c t b q d m hm)
    ((cfg1.win 2).xinj (grid1.coords t) j) (((cfg1.win 2).blk t).view.emb j) ?_ ?_
  · show win1_2.index t (0 : Fin 2) * 512 + 1 * (j 0).val = win1_0.index t (1 : Fin 3) * 512 + (j 0).val
    omega
  · show win1_2.index t (1 : Fin 2) * 512 + 1 * (j 1).val = win1_1.index t (1 : Fin 3) * 512 + (j 1).val
    omega

/-- The tiles cover the output: entry `(n, m)` lies in the block of the point with `nt = n / 512` and `mt = m / 512`, the
    point `8·nt + mt` of the grid, and every point writes its block back. -/
theorem cover (c : Dev nD) (i : S4096x4096.Idx) :
    ∃ t : Fin cfg1.N, (cfg1.win 2).flush t = true ∧ i ∈ ((cfg1.win 2).blk t).view.set := by
  have hN : cfg1.N = 64 := N_1
  have hi0 : (i 0).val < 4096 := idx2_lt0 i
  have hi1 : (i 1).val < 4096 := idx2_lt1 i
  let t : Fin cfg1.N := ⟨8 * ((i 0).val / 512) + (i 1).val / 512, by rw [hN]; omega⟩
  have ht : t.val = 8 * ((i 0).val / 512) + (i 1).val / 512 := rfl
  obtain ⟨-, -, -, -, -, -, e20, e21⟩ := block_indices t
  refine ⟨t, flush1_2 t, ?_⟩
  show i ∈ ((View.whole main_v1).slice (win1_2.rect t)).set
  rw [View.set_slice_whole, Rect.mem_set_unit]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 512 ≤ (i 1).val ∧ (i 1).val < win1_2.index t (1 : Fin 2) * 512 + 512
    omega

/-- After the second call's run its output array holds, at `(n, m)`, the least distance over the batch between row `n` of
    the first cloud and row `m` of the second. -/
theorem value (c : Dev nD) :
    (dat1 (F := Ideal) V c).arrAt 2 cfg1.N = Chamfer.bwd (V c main_arg0) (V c main_arg1) :=
  (dat1 V c).arrAt_eq_of_cover 2 _ (fun t _ => flushed_eq V c t) (cover c)

end Cert.KernelIdeal.Region1

end
-- ==== Proof.KernelValue.lean ====
/-
  The idealized kernel's result, as one term of the two clouds.

  @main runs the two calls and then nine host operations: the sum of the first call's `[8, 4096]` array divided by
  `32768`, the sum of the second call's `[4096, 4096]` array divided by `16777216`, and the two means added (`total`). The
  first array is `Chamfer.fwd` of the clouds and the second `Chamfer.bwd` (the region modules); neither call writes a cloud
  or the other call's array, so each is read at the launch contents.
-/
import proofs.«132761_j16922171146733_1_alg».proof.Proof.KernelRun
import proofs.«132761_j16922171146733_1_alg».proof.Proof.Region0Value
import proofs.«132761_j16922171146733_1_alg».proof.Proof.Region1Value
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen

/-- The two means added: what both programs do last with the two arrays of least distances. -/
def total (u : (⟨S8x4096, .f32⟩ : BufTy).Contents (Elt Ideal)) (v : (⟨S4096x4096, .f32⟩ : BufTy).Contents (Elt Ideal)) :
    (⟨S_, .f32⟩ : BufTy).Contents (Elt Ideal) :=
  addf (Host.divf (Host.reduceAdd u (constant (F := Ideal) S_ .f32 0x00000000#32) reducesTo_S8x4096_S_d0_1 h_S_) (constant (F := Ideal) S_ .f32 0x47000000#32))
    (Host.divf (Host.reduceAdd v (constant (F := Ideal) S_ .f32 0x00000000#32) reducesTo_S4096x4096_S_d0_1 h_S_) (constant (F := Ideal) S_ .f32 0x4B800000#32))

variable (m : (ℓ : Loc nD τ sig) → Buf (Elt Ideal) ℓ) (ρ : Dev nD → PrngReg)

/-- The host tail: the result buffer after the nine operations is `total` of the two calls' arrays. -/
theorem W3_result (c : Dev nD) :
    W3 m ρ c (Proc.devRef .tc main_v6) = total (W2 m ρ c (Proc.devRef .tc main_v0)) (W2 m ρ c (Proc.devRef .tc main_v1)) := by
  show StableHlo.after hostOps2 (W2 m ρ c) (Proc.devRef .tc main_v6) = _
  after_results
  rfl

/-- The first call leaves the clouds as launched. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))

/-- The first call's array, untouched by the second call. -/
theorem W2_v0 (c : Dev nD) :
    W2 m ρ c (Proc.devRef .tc main_v0) = Chamfer.fwd (m ((c : Thread nD τ).loc main_arg0)) (m ((c : Thread nD τ).loc main_arg1)) :=
  (W2_of_ne m ρ c main_v0 (fun w => by fin_cases w <;> decide)).trans
    ((W1_arr m ρ c 2).trans (Region0.value (V0 m ρ) c))

/-- The second call's array. -/
theorem W2_v1 (c : Dev nD) :
    W2 m ρ c (Proc.devRef .tc main_v1) = Chamfer.bwd (m ((c : Thread nD τ).loc main_arg0)) (m ((c : Thread nD τ).loc main_arg1)) := by
  refine (W2_arr m ρ c 2).trans ((Region1.value (V1 m ρ) c).trans ?_)
  show Chamfer.bwd (W1 m ρ c (Proc.devRef .tc main_arg0)) (W1 m ρ c (Proc.devRef .tc main_arg1)) = _
  rw [W1_arg0, W1_arg1]

/-- The idealized kernel's run: the result at `total` of the two arrays of least distances, the clouds unchanged. -/
theorem run : θ_run defs (onTc (τ := τ) (main (F := Ideal))) ⟨m, fun _ => 0, ρ⟩ (fun r => ∀ c : Dev nD,
      r.2.mem ((c.tc : Thread nD τ).loc main_v6)
        = total (Chamfer.fwd (m ((c.tc : Thread nD τ).loc main_arg0)) (m ((c.tc : Thread nD τ).loc main_arg1)))
            (Chamfer.bwd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by rw [W3_result, W2_v0, W2_v1]), (h c).2⟩)
    (Cert.KernelIdeal.Run.run_named (F := Ideal) m ρ)

end Cert.KernelIdeal.Result

end
-- ==== Proof.RefValue.lean ====
/-
  The reference program's two minimum reductions, read over the extended reals.

  The reference forms, for every batch `b`, row `n` of the first cloud and row `m` of the second, the clamped squared
  distance in Gram form, takes its square root, and then takes two minima of the resulting `[8, 4096, 4096]` array: over
  `n` (for each `(b, m)`) and over `b` (for each `(n, m)`). Entry by entry the array is `Chamfer.dist`; a minimum
  started from `+∞` over one whole axis is the infimum over that axis's coordinates.
-/
import proofs.«132761_j16922171146733_1_alg».proof.Proof.Gen.ReferenceIdeal.Read
import proofs.«132761_j16922171146733_1_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Gen Cert.ReferenceIdeal.Read

/-- The entry `(b, n, m)` of the array of distances is the distance between row `n` of `x` and row `m` of `y` in batch `b`. -/
theorem v15_apply (x y : FVec Ideal S8x4096x128 .f32) (b : Fin 8) (n m : Fin 4096) :
    val_main_v15 (F := Ideal) x y (ix3 b n m) = Chamfer.dist x y b n m := by
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_v4_apply, val_main_v13_apply]
  have e1 : ∀ k : Fin 128, idx_main_v1 (idx_main_v5 (idx_main_v7 (ix3 b n m))) k = ix3 b n k := fun k =>
    funext fun a => match a with | ⟨0, _⟩ => rfl | ⟨1, _⟩ => rfl | ⟨2, _⟩ => rfl
  have e2 : ∀ k : Fin 128, idx_main_v3 (idx_main_v6 (idx_main_v8 (ix3 b n m))) k = ix3 b m k := fun k =>
    funext fun a => match a with | ⟨0, _⟩ => rfl | ⟨1, _⟩ => rfl | ⟨2, _⟩ => rfl
  have e3 : ∀ k : Fin 128, lidx_main_v4 (ix3 b n m) k = ix3 b n k := fun k =>
    funext fun a => match a with | ⟨0, _⟩ => rfl | ⟨1, _⟩ => rfl | ⟨2, _⟩ => rfl
  have e4 : ∀ k : Fin 128, ridx_main_v4 (ix3 b n m) k = ix3 b m k := fun k =>
    funext fun a => match a with | ⟨0, _⟩ => rfl | ⟨1, _⟩ => rfl | ⟨2, _⟩ => rfl
  simp only [e1, e2, e3, e4, val_main_v0_apply, val_main_v2_apply, val_main_cst_apply, val_main_cst_0_apply,
    val_main_cst_1_apply, val_main_cst_2_apply]
  unfold Chamfer.dist Chamfer.sqd
  simp only [Ideal.hostUnary_sqrt_def, Ideal.maximumf_def, Ideal.subf_def, Ideal.addf_def, Ideal.mulf_def, Ideal.ofBits_def]
  rw [Ideal.ofBits_zero_f32, zero_add, zero_add]

/-- For each `(b, m)`: the minimum over the rows `n` of `x`, started from `+∞`, of the distances is `Chamfer.fwd`. -/
theorem v16_eq (x y : FVec Ideal S8x4096x128 .f32) : val_main_v16 (F := Ideal) x y = Chamfer.fwd x y := by
  funext i
  unfold val_main_v16
  have h : S8x4096x4096.Reduces [1] S8x4096 := by decide
  rw [Host.reduce_eq_fold_single (f := FloatOps.minimumf (F := Ideal) (φ := .f32)) (h := h), val_main_cst_3_apply]
  show Finset.fold min (Ideal.ofBits .f32 0x7F800000#32) (val_main_v15 (F := Ideal) x y ∘ h.lift i) Finset.univ = _
  rw [Chamfer.ofBits_inf, Chamfer.fold_min_top]
  unfold Chamfer.fwd
  refine iInf_congr fun (k : Fin 4096) => ?_
  have e : h.lift i k = ix3 (i 0 : Fin 8) k (i 1 : Fin 4096) :=
    funext fun a => Fin.ext (match a with | ⟨0, _⟩ => rfl | ⟨1, _⟩ => rfl | ⟨2, _⟩ => rfl)
  show val_main_v15 (F := Ideal) x y (h.lift i k) = _
  rw [e]
  exact v15_apply x y (i 0) k (i 1)

/-- For each `(n, m)`: the minimum over the batch, started from `+∞`, of the distances is `Chamfer.bwd`. -/
theorem v17_eq (x y : FVec Ideal S8x4096x128 .f32) : val_main_v17 (F := Ideal) x y = Chamfer.bwd x y := by
  funext i
  unfold val_main_v17
  have h : S8x4096x4096.Reduces [0] S4096x4096 := by decide
  rw [Host.reduce_eq_fold_single (f := FloatOps.minimumf (F := Ideal) (φ := .f32)) (h := h), val_main_cst_4_apply]
  show Finset.fold min (Ideal.ofBits .f32 0x7F800000#32) (val_main_v15 (F := Ideal) x y ∘ h.lift i) Finset.univ = _
  rw [Chamfer.ofBits_inf, Chamfer.fold_min_top]
  unfold Chamfer.bwd
  refine iInf_congr fun (k : Fin 8) => ?_
  have e : h.lift i k = ix3 k (i 0 : Fin 4096) (i 1 : Fin 4096) :=
    funext fun a => Fin.ext (match a with | ⟨0, _⟩ => rfl | ⟨1, _⟩ => rfl | ⟨2, _⟩ => rfl)
  show val_main_v15 (F := Ideal) x y (h.lift i k) = _
  rw [e]
  exact v15_apply x y k (i 0) (i 1)

end Cert.ReferenceIdeal.RefValue

end
-- ==== Proof.lean ====
/-
  The certificate: a two-call Chamfer-distance kernel against its reference program, over the extended reals.

  For two clouds `x, y : [8, 4096, 128]` both programs compute the mean over `(b, m)` of the distance from `y_m` to the
  nearest `x_n` of batch `b` plus the mean over `(n, m)` of the least distance between `x_n` and `y_m` over the batch, the
  squared distance in Gram form `max (‖x_n‖² + ‖y_m‖² - 2·⟨x_n, y_m⟩) 0`. The reference takes the square root of every
  squared distance and then the minima; the kernel takes the minima of the squares — the first call tile by tile
  along `n` in a buffer it carries over eight grid points, the second over the batch inside one point — and the square
  root last. The square root on the extended reals is monotone and fixes `+∞`, so it commutes with a minimum
  (`Chamfer.sqrt_iInf`): the two arrays of least distances are the same (`Chamfer.fwd`, `Chamfer.bwd`), and both programs
  end with the same two means added. The precondition is not used: no step needs a finite entry.

  The frames of the two kernel programs are the generated ones; the reference's is its generated run. The idealization
  rewrote nothing, so `preserves` is trivial.
-/
import proofs.«132761_j16922171146733_1_alg».proof.Defs
import proofs.«132761_j16922171146733_1_alg».proof.Proof.Gen.Kernel
import proofs.«132761_j16922171146733_1_alg».proof.Proof.Gen.Kernel.Skeleton
import proofs.«132761_j16922171146733_1_alg».proof.Proof.Gen.Kernel.Launch
import proofs.«132761_j16922171146733_1_alg».proof.Proof.Gen.Kernel.Points
import proofs.«132761_j16922171146733_1_alg».proof.Proof.Gen.Kernel.Frame
import proofs.«132761_j16922171146733_1_alg».proof.Proof.Gen.KernelIdeal
import proofs.«132761_j16922171146733_1_alg».proof.Proof.Gen.KernelIdeal.Skeleton
import proofs.«132761_j16922171146733_1_alg».proof.Proof.Gen.KernelIdeal.Launch
import proofs.«132761_j16922171146733_1_alg».proof.Proof.Gen.KernelIdeal.Points
import proofs.«132761_j16922171146733_1_alg».proof.Proof.Gen.KernelIdeal.Frame
import proofs.«132761_j16922171146733_1_alg».proof.Proof.Gen.ReferenceIdeal
import proofs.«132761_j16922171146733_1_alg».proof.Proof.Gen.Pre_finite_inputs
import proofs.«132761_j16922171146733_1_alg».proof.Proof.Gen.ReferenceIdeal.Read
import proofs.«132761_j16922171146733_1_alg».proof.Proof.KernelValue
import proofs.«132761_j16922171146733_1_alg».proof.Proof.RefValue
import Idealize.ShloMosaic.Adequacy
import Idealize.ShloMosaic.Init

noncomputable section

namespace Cert.Proof

open Idealize.ShloMosaic Idealize.ShloMosaic.TcCoe Idealize.SL.Sem

/-- The reference's result term is the kernel's: its two min-reductions are `Chamfer.fwd` and `Chamfer.bwd` of the clouds,
    and what follows them is the same two means added. -/
theorem ref_result (x y : (⟨Cert.ReferenceIdeal.S8x4096x128, .f32⟩ : BufTy).Contents (Elt Ideal)) :
    Cert.ReferenceIdeal.Read.val_main_v22 (F := Ideal) x y
      = Cert.KernelIdeal.Result.total (Chamfer.fwd x y) (Chamfer.bwd x y) := by
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18
  rw [Cert.ReferenceIdeal.RefValue.v16_eq, Cert.ReferenceIdeal.RefValue.v17_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the clouds both idealized programs end at the two means of least distances added. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _).trans ?_
  rw [ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
